-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v42_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v42_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512 : Shape := ⟨2, ![64, 512]⟩
abbrev S64x1024x1024 : Shape := ⟨3, ![64, 1024, 1024]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S512x1024 : Shape := ⟨2, ![512, 1024]⟩
abbrev S1x512 : Shape := ⟨2, ![1, 512]⟩
abbrev S1 : Shape := ⟨1, ![1]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel
  bcast_S_S64x1024x1024 : S_.BroadcastsInDim S64x1024x1024 (![] : Fin 0 → Fin S64x1024x1024.rank)
  reducesTo_S64x1024x1024_S_d0_1_2 : S64x1024x1024.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S512x1024 : S_.BroadcastsInDim S512x1024 (![] : Fin 0 → Fin S512x1024.rank)
  reducesTo_S512x1024_S_d0_1 : S512x1024.ReducesTo [0, 1] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S1x512 .f32) (main_v50 : FVec F S1x512 .f32) : IVec S_ 1 :=
  let main_v51 : IVec S1x512 1 := cmpf .olt main_v49 main_v50
  let main_c_19 : IVec S_ 1 := constantI S_ 1 1#1
  let main_v52 : IVec S_ 1 := (fun x v => Host.reduce IntOp.andi x v reducesTo_S1x512_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S1024 .f32) (main_arg8 : FVec F S512x1024 .f32) (main_arg9 : FVec F S512 .f32) (main_arg10 : FVec F S1x512 .f32) (main_arg11 : FVec F S1 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S512x1024 .f32 := Host.absf main_arg8
  let main_cst_14 : FVec F S_ .f32 := constant S_ .f32 0x7F800000#32
  let main_v40 : FVec F S512x1024 .f32 := broadcastInDim S512x1024 ![] bcast_S_S512x1024 main_cst_14
  let main_v41 : IVec S512x1024 1 := cmpf .olt main_v39 main_v40
  let main_c_15 : IVec S_ 1 := constantI S_ 1 1#1
  let main_v42 : IVec S_ 1 := (fun x v => Host.reduce IntOp.andi x v reducesTo_S512x1024_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S1x512 .f32 := Host.absf main_arg10
  let main_cst_18 : FVec F S_ .f32 := constant S_ .f32 0x7F800000#32
  let main_v50 : FVec F S1x512 .f32 := broadcastInDim S1x512 ![] bcast_S_S1x512 main_cst_18
  fn_part3 (F := F) main_arg11 main_v48 main_v49 main_v50

def fn_part1 {F : FTy → Type} [FloatOps F] (main_arg4 : FVec F S512x512 .f32) (main_arg5 : FVec F S512 .f32) (main_arg6 : FVec F S1024x512 .f32) (main_arg7 : FVec F S1024 .f32) (main_arg8 : FVec F S512x1024 .f32) (main_arg9 : FVec F S512 .f32) (main_arg10 : FVec F S1x512 .f32) (main_arg11 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S1024x512 .f32 := Host.absf main_arg6
  let main_cst_10 : FVec F S_ .f32 := constant S_ .f32 0x7F800000#32
  let main_v30 : FVec F S1024x512 .f32 := broadcastInDim S1024x512 ![] bcast_S_S1024x512 main_cst_10
  let main_v31 : IVec S1024x512 1 := cmpf .olt main_v29 main_v30
  let main_c_11 : IVec S_ 1 := constantI S_ 1 1#1
  let main_v32 : IVec S_ 1 := (fun x v => Host.reduce IntOp.andi x v reducesTo_S1024x512_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S64x512 .f32) (main_arg1 : FVec F S64x1024x1024 .f32) (main_arg2 : FVec F S512x512 .f32) (main_arg3 : FVec F S512 .f32) (main_arg4 : FVec F S512x512 .f32) (main_arg5 : FVec F S512 .f32) (main_arg6 : FVec F S1024x512 .f32) (main_arg7 : FVec F S1024 .f32) (main_arg8 : FVec F S512x1024 .f32) (main_arg9 : FVec F S512 .f32) (main_arg10 : FVec F S1x512 .f32) (main_arg11 : FVec F S1 .f32) : IVec S_ 1 :=
  let main_v0 : FVec F S64x512 .f32 := Host.absf main_arg0
  let main_cst : FVec F S_ .f32 := constant S_ .f32 0x7F800000#32
  let main_v1 : FVec F S64x512 .f32 := broadcastInDim S64x512 ![] bcast_S_S64x512 main_cst
  let main_v2 : IVec S64x512 1 := cmpf .olt main_v0 main_v1
  let main_c : IVec S_ 1 := constantI S_ 1 1#1
  let main_v3 : IVec S_ 1 := (fun x v => Host.reduce IntOp.andi x v reducesTo_S64x512_S_d0_1 h_S_) main_v2 main_c
  let main_v4 : FVec F S64x1024x1024 .f32 := Host.absf main_arg1
  let main_cst_0 : FVec F S_ .f32 := constant S_ .f32 0x7F800000#32
  let main_v5 : FVec F S64x1024x1024 .f32 := broadcastInDim S64x1024x1024 ![] bcast_S_S64x1024x1024 main_cst_0
  let main_v6 : IVec S64x1024x1024 1 := cmpf .olt main_v4 main_v5
  let main_c_1 : IVec S_ 1 := constantI S_ 1 1#1
  let main_v7 : IVec S_ 1 := (fun x v => Host.reduce IntOp.andi x v reducesTo_S64x1024x1024_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_v13 main_v16
-- ==== Kernel.lean ====
abbrev S64x512 : Shape := ⟨2, ![64, 512]⟩
abbrev S64x1024x1024 : Shape := ⟨3, ![64, 1024, 1024]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S512x1024 : Shape := ⟨2, ![512, 1024]⟩
abbrev S1x512 : Shape := ⟨2, ![1, 512]⟩
abbrev S1 : Shape := ⟨1, ![1]⟩
abbrev S64x1024 : Shape := ⟨2, ![64, 1024]⟩
abbrev S1x1024 : Shape := ⟨2, ![1, 1024]⟩
abbrev S512x1 : Shape := ⟨2, ![512, 1]⟩
abbrev S64x1 : Shape := ⟨2, ![64, 1]⟩
abbrev S1x1 : Shape := ⟨2, ![1, 1]⟩
abbrev S_ : Shape := ⟨0, ![]⟩
abbrev S64x1023 : Shape := ⟨2, ![64, 1023]⟩
abbrev S64x1x1024 : Shape := ⟨3, ![64, 1, 1024]⟩
abbrev S64x1x1 : Shape := ⟨3, ![64, 1, 1]⟩
abbrev S1x1x1024 : Shape := ⟨3, ![1, 1, 1024]⟩
abbrev S1x1x1 : Shape := ⟨3, ![1, 1, 1]⟩
abbrev S1x1024x1024 : Shape := ⟨3, ![1, 1024, 1024]⟩
abbrev S1024x1024 : Shape := ⟨2, ![1024, 1024]⟩
abbrev S1024x1 : Shape := ⟨2, ![1024, 1]⟩

abbrev nBuf : Space → Nat
  | .hbm => 76
  | .vmem => 14
  | .smem => 0
  | _ => 0

abbrev bufTy : (tb : Table) → Fin (tcTables nBuf tb) → BufTy
  | .hbm, ⟨0, _⟩ => ⟨S64x512, .f32⟩
  | .hbm, ⟨1, _⟩ => ⟨S64x1024x1024, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S1024x512, .f32⟩
  | .hbm, ⟨7, _⟩ => ⟨S1024, .f32⟩
  | .hbm, ⟨8, _⟩ => ⟨S512x1024, .f32⟩
  | .hbm, ⟨9, _⟩ => ⟨S512, .f32⟩
  | .hbm, ⟨10, _⟩ => ⟨S1x512, .f32⟩
  | .hbm, ⟨11, _⟩ => ⟨S1, .f32⟩
  | .hbm, ⟨12, _⟩ => ⟨S512x512, .f32⟩
  | .hbm, ⟨13, _⟩ => ⟨S64x512, .f32⟩
  | .hbm, ⟨14, _⟩ => ⟨S1x512, .f32⟩
  | .hbm, ⟨15, _⟩ => ⟨S64x512, .f32⟩
  | .hbm, ⟨16, _⟩ => ⟨S64x512, .f32⟩
  | .hbm, ⟨17, _⟩ => ⟨S512x512, .f32⟩
  | .hbm, ⟨18, _⟩ => ⟨S64x512, .f32⟩
  | .hbm, ⟨19, _⟩ => ⟨S1x512, .f32⟩
  | .hbm, ⟨20, _⟩ => ⟨S64x512, .f32⟩
  | .hbm, ⟨21, _⟩ => ⟨S64x512, .f32⟩
  | .hbm, ⟨22, _⟩ => ⟨S512x1024, .f32⟩
  | .hbm, ⟨23, _⟩ => ⟨S64x1024, .f32⟩
  | .hbm, ⟨24, _⟩ => ⟨S1x1024, .f32⟩
  | .hbm, ⟨25, _⟩ => ⟨S64x1024, .f32⟩
  | .hbm, ⟨26, _⟩ => ⟨S64x1024, .f32⟩
  | .hbm, ⟨27, _⟩ => ⟨S512x1, .f32⟩
  | .hbm, ⟨28, _⟩ => ⟨S64x1, .f32⟩
  | .hbm, ⟨29, _⟩ => ⟨S1x1, .f32⟩
  | .hbm, ⟨30, _⟩ => ⟨S64x1, .f32⟩
  | .hbm, ⟨31, _⟩ => ⟨S64x1, .f32⟩
  | .hbm, ⟨32, _⟩ => ⟨S64x1, .f32⟩
  | .hbm, ⟨33, _⟩ => ⟨S64x1, .f32⟩
  | .hbm, ⟨34, _⟩ => ⟨S_, .f32⟩
  | .hbm, ⟨35, _⟩ => ⟨S64x1, .f32⟩
  | .hbm, ⟨36, _⟩ => ⟨S64x1, .f32⟩
  | .hbm, ⟨37, _⟩ => ⟨S_, .f32⟩
  | .hbm, ⟨38, _⟩ => ⟨S64x1, .f32⟩
  | .hbm, ⟨39, _⟩ => ⟨S64x1, .f32⟩
  | .hbm, ⟨40, _⟩ => ⟨S_, .f32⟩
  | .hbm, ⟨41, _⟩ => ⟨S64x512, .f32⟩
  | .hbm, ⟨42, _⟩ => ⟨S64x512, .f32⟩
  | .hbm, ⟨43, _⟩ => ⟨S64x512, .f32⟩
  | .hbm, ⟨44, _⟩ => ⟨S_, .f32⟩
  | .hbm, ⟨45, _⟩ => ⟨S64x512, .f32⟩
  | .hbm, ⟨46, _⟩ => ⟨S64x512, .f32⟩
  | .hbm, ⟨47, _⟩ => ⟨S64x1024, .f32⟩
  | .hbm, ⟨48, _⟩ => ⟨S64x1, .f32⟩
  | .hbm, ⟨49, _⟩ => ⟨S64x1023, .f32⟩
  | .hbm, ⟨50, _⟩ => ⟨S64x1024, .f32⟩
  | .hbm, ⟨51, _⟩ => ⟨S64x1024, .f32⟩
  | .hbm, ⟨52, _⟩ => ⟨S_, .f32⟩
  | .hbm, ⟨53, _⟩ => ⟨S64x512, .f32⟩
  | .hbm, ⟨54, _⟩ => ⟨S64x512, .f32⟩
  | .hbm, ⟨55, _⟩ => ⟨S64x512, .f32⟩
  | .hbm, ⟨56, _⟩ => ⟨S_, .f32⟩
  | .hbm, ⟨57, _⟩ => ⟨S64x512, .f32⟩
  | .hbm, ⟨58, _⟩ => ⟨S64x512, .f32⟩
  | .hbm, ⟨59, _⟩ => ⟨S64x1024, .f32⟩
  | .hbm, ⟨60, _⟩ => ⟨S64x1, .f32⟩
  | .hbm, ⟨61, _⟩ => ⟨S64x1023, .f32⟩
  | .hbm, ⟨62, _⟩ => ⟨S64x1024, .f32⟩
  | .hbm, ⟨63, _⟩ => ⟨S64x1024, .f32⟩
  | .hbm, ⟨64, _⟩ => ⟨S64x1x1024, .f32⟩
  | .hbm, ⟨65, _⟩ => ⟨S64x1x1024, .f32⟩
  | .hbm, ⟨66, _⟩ => ⟨S64x1x1024, .f32⟩
  | .hbm, ⟨67, _⟩ => ⟨S64x1x1, .f32⟩
  | .hbm, ⟨68, _⟩ => ⟨S64x1024x1024, .f32⟩
  | .hbm, ⟨69, _⟩ => ⟨S64x1x1024, .f32⟩
  | .hbm, ⟨70, _⟩ => ⟨S64x1024, .f32⟩
  | .hbm, ⟨71, _⟩ => ⟨S1024x512, .f32⟩
  | .hbm, ⟨72, _⟩ => ⟨S64x512, .f32⟩
  | .hbm, ⟨73, _⟩ => ⟨S1x512, .f32⟩
  | .hbm, ⟨74, _⟩ => ⟨S64x512, .f32⟩
  | .hbm, ⟨75, _⟩ => ⟨S64x512, .f32⟩
  | .local _ .vmem, ⟨0, _⟩ => ⟨S1x1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1, .f32⟩
  | .local _ .vmem, ⟨7, _⟩ => ⟨S1x1x1, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x1x1024, .f32⟩
  | .local _ .vmem, ⟨13, _⟩ => ⟨S1x1x1024, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_v22 : Ref sig .tc := ⟨.hbm, 35, rfl⟩
abbrev main_v23 : Ref sig .tc := ⟨.hbm, 36, rfl⟩
abbrev main_cst_0 : Ref sig .tc := ⟨.hbm, 37, rfl⟩
abbrev main_v24 : Ref sig .tc := ⟨.hbm, 38, rfl⟩
abbrev main_v25 : Ref sig .tc := ⟨.hbm, 39, rfl⟩
abbrev main_call0_cst : Ref sig .tc := ⟨.hbm, 40, rfl⟩
abbrev main_call0_v0 : Ref sig .tc := ⟨.hbm, 41, rfl⟩
abbrev main_v26 : Ref sig .tc := ⟨.hbm, 42, rfl⟩
abbrev main_v27 : Ref sig .tc := ⟨.hbm, 43, rfl⟩
abbrev main_call1_cst : Ref sig .tc := ⟨.hbm, 44, rfl⟩
abbrev main_call1_v0 : Ref sig .tc := ⟨.hbm, 45, rfl⟩
abbrev main_v28 : Ref sig .tc := ⟨.hbm, 46, rfl⟩
abbrev main_v29 : Ref sig .tc := ⟨.hbm, 47, rfl⟩
abbrev main_call2_v0 : Ref sig .tc := ⟨.hbm, 48, rfl⟩
abbrev main_call2_v1 : Ref sig .tc := ⟨.hbm, 49, rfl⟩
abbrev main_v30 : Ref sig .tc := ⟨.hbm, 50, rfl⟩
abbrev main_v31 : Ref sig .tc := ⟨.hbm, 51, rfl⟩
abbrev main_call3_cst : Ref sig .tc := ⟨.hbm, 52, rfl⟩
abbrev main_call3_v0 : Ref sig .tc := ⟨.hbm, 53, rfl⟩
abbrev main_v32 : Ref sig .tc := ⟨.hbm, 54, rfl⟩
abbrev main_v33 : Ref sig .tc := ⟨.hbm, 55, rfl⟩
abbrev main_call4_cst : Ref sig .tc := ⟨.hbm, 56, rfl⟩
abbrev main_call4_v0 : Ref sig .tc := ⟨.hbm, 57, rfl⟩
abbrev main_v34 : Ref sig .tc := ⟨.hbm, 58, rfl⟩
abbrev main_v35 : Ref sig .tc := ⟨.hbm, 59, rfl⟩
abbrev main_call5_v0 : Ref sig .tc := ⟨.hbm, 60, rfl⟩
abbrev main_call5_v1 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42_0 : Ref sig .tc := ⟨.hbm, 68, rfl⟩
abbrev main_v42_1 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S512x512_S512x512_1_0 : S512x512.Transposes [1, 0] S512x512
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  transposes_S1024x512_S512x1024_1_0 : S1024x512.Transposes [1, 0] S512x1024
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  transposes_S1x512_S512x1_1_0 : S1x512.Transposes [1, 0] S512x1
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  bcast_S_S64x512 : S_.BroadcastsInDim S64x512 (![] : Fin 0 → Fin S64x512.rank)
  concatenates_S64x512_S64x512_S64x1024_d1 : Shape.Concatenates [S64x512, S64x512] S64x1024 1
  slices_S64x1024_S64x1_0_1023 : S64x1024.Slices ![0, 1023] S64x1
  slices_S64x1024_S64x1023_0_0 : S64x1024.Slices ![0, 0] S64x1023
  concatenates_S64x1_S64x1023_S64x1024_d1 : Shape.Concatenates [S64x1, S64x1023] S64x1024 1
  shapeCasts_S64x1024_S64x1x1024 : S64x1024.ShapeCasts S64x1x1024
  shapeCasts_S64x1_S64x1x1 : S64x1.ShapeCasts S64x1x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [0] S1024
  shapeCasts_S1024_S1x1024 : S1024.ShapeCasts S1x1024
  reduces_S1024x1024_S1024_2 : S1024x1024.Reduces [1] S1024
  shapeCasts_S1024_S1024x1 : S1024.ShapeCasts S1024x1
  transposes_S1024x1_p1_0_S1x1024 : S1024x1.Transposes [1, 0] S1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  broadcasts_S1x1_S1x1024 : S1x1.Broadcasts S1x1024
  reduces_S1x1024_S1 : S1x1024.Reduces [1] S1
  shapeCasts_S1_S1x1 : S1.ShapeCasts S1x1
  transposes_S1x1024_p1_0_S1024x1 : S1x1024.Transposes [1, 0] S1024x1
  broadcasts_S1024x1_S1024x1024 : S1024x1.Broadcasts S1024x1024
  broadcasts_S1x1024_S1024x1024 : S1x1024.Broadcasts S1024x1024
  shapeCasts_S1024x1024_S1x1024x1024 : S1024x1024.ShapeCasts S1x1024x1024
  shapeCasts_S1x1024_S1x1x1024 : S1x1024.ShapeCasts S1x1x1024
  shapeCasts_S64x1x1024_S64x1024 : S64x1x1024.ShapeCasts S64x1024
  transposes_S512x1024_S1024x512_1_0 : S512x1024.Transposes [1, 0] S1024x512
  dot_S64x512_S512x512_S64x512_1_0_0_1_n_n_wf : DotDims.WF S64x512 S512x512 S64x512 [1] [0] [0] [1] [] []
  dot_S64x512_S512x1024_S64x1024_1_0_0_1_n_n_wf : DotDims.WF S64x512 S512x1024 S64x1024 [1] [0] [0] [1] [] []
  dot_S64x512_S512x1_S64x1_1_0_0_1_n_n_wf : DotDims.WF S64x512 S512x1 S64x1 [1] [0] [0] [1] [] []
  dot_S64x1024_S1024x512_S64x512_1_0_0_1_n_n_wf : DotDims.WF S64x1024 S1024x512 S64x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024.size a ≤ S64x1x1024.size a
  hwx0_0 : ∀ i : grid0.Coords, EltTy.bits .f32 = 32 ∨ (Rect.block (s := S64x1x1024) S1x1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S64x1x1024.size a
  hwx0_1 : ∀ i : grid0.Coords, EltTy.bits .f32 = 32 ∨ (Rect.block (s := S64x1x1024) S1x1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S64x1x1024.size a
  hwx0_2 : ∀ i : grid0.Coords, EltTy.bits .f32 = 32 ∨ (Rect.block (s := S64x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S64x1x1.size a
  hwx0_3 : ∀ i : grid0.Coords, EltTy.bits .f32 = 32 ∨ (Rect.block (s := S64x1x1) S1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S64x1024x1024.size a
  hwx0_4 : ∀ i : grid0.Coords, EltTy.bits .f32 = 32 ∨ (Rect.block (s := S64x1024x1024) S1x1024x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S64x1024x1024.size a
  hwx0_5 : ∀ i : grid0.Coords, EltTy.bits .f32 = 32 ∨ (Rect.block (s := S64x1024x1024) S1x1024x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S64x1x1024.size a
  hwx0_6 : ∀ i : grid0.Coords, EltTy.bits .f32 = 32 ∨ (Rect.block (s := S64x1x1024) S1x1x1024.size (cc0_transform_6 i) (hinb0_6 i)).WholeWords (EltTy.packing .f32)

variable [Facts₀]

def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S64x512_S512x1024_S64x1024_1_0_0_1_n_n : DotDims S64x512 S512x1024 S64x1024 where
  lhsContracting := [1]
  rhsContracting := [0]
  lhsNonContracting := [0]
  rhsNonContracting := [1]
  lhsBatch := []
  rhsBatch := []
  wf := dot_S64x512_S512x1024_S64x1024_1_0_0_1_n_n_wf
def dot_S64x512_S512x1_S64x1_1_0_0_1_n_n : DotDims S64x512 S512x1 S64x1 where
  lhsContracting := [1]
  rhsContracting := [0]
  lhsNonContracting := [0]
  rhsNonContracting := [1]
  lhsBatch := []
  rhsBatch := []
  wf := dot_S64x512_S512x1_S64x1_1_0_0_1_n_n_wf
def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf

abbrev win0_0 : Pipeline.Window sig grid0 :=
  Pipeline.Window.ofSpec (Memref.whole main_v38) S1x1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v39) S1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v40) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v41) S1x1x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1x1024x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v42_0) S1x1024x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v42_1) S1x1x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x512 : Shape := ⟨2, ![64, 512]⟩
abbrev S64x1024x1024 : Shape := ⟨3, ![64, 1024, 1024]⟩
abbrev S512x512 : Shape := ⟨2, ![512, 512]⟩
abbrev S512 : Shape := ⟨1, ![512]⟩
abbrev S1024x512 : Shape := ⟨2, ![1024, 512]⟩
abbrev S1024 : Shape := ⟨1, ![1024]⟩
abbrev S512x1024 : Shape := ⟨2, ![512, 1024]⟩
abbrev S1x512 : Shape := ⟨2, ![1, 512]⟩
abbrev S1 : Shape := ⟨1, ![1]⟩
abbrev S64x1024 : Shape := ⟨2, ![64, 1024]⟩
abbrev S1x1024 : Shape := ⟨2, ![1, 1024]⟩
abbrev S512x1 : Shape := ⟨2, ![512, 1]⟩
abbrev S64x1 : Shape := ⟨2, ![64, 1]⟩
abbrev S1x1 : Shape := ⟨2, ![1, 1]⟩
abbrev S_ : Shape := ⟨0, ![]⟩
abbrev S64x1023 : Shape := ⟨2, ![64, 1023]⟩
abbrev S64x1024x1 : Shape := ⟨3, ![64, 1024, 1]⟩
abbrev S64x1x1024 : Shape := ⟨3, ![64, 1, 1024]⟩

abbrev nBuf : Space → Nat
  | .hbm => 84
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S64x1024x1024, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S1024x512, .f32⟩
  | .hbm, ⟨7, _⟩ => ⟨S1024, .f32⟩
  | .hbm, ⟨8, _⟩ => ⟨S512x1024, .f32⟩
  | .hbm, ⟨9, _⟩ => ⟨S512, .f32⟩
  | .hbm, ⟨10, _⟩ => ⟨S1x512, .f32⟩
  | .hbm, ⟨11, _⟩ => ⟨S1, .f32⟩
  | .hbm, ⟨12, _⟩ => ⟨S512x512, .f32⟩
  | .hbm, ⟨13, _⟩ => ⟨S64x512, .f32⟩
  | .hbm, ⟨14, _⟩ => ⟨S1x512, .f32⟩
  | .hbm, ⟨15, _⟩ => ⟨S64x512, .f32⟩
  | .hbm, ⟨16, _⟩ => ⟨S64x512, .f32⟩
  | .hbm, ⟨17, _⟩ => ⟨S512x512, .f32⟩
  | .hbm, ⟨18, _⟩ => ⟨S64x512, .f32⟩
  | .hbm, ⟨19, _⟩ => ⟨S1x512, .f32⟩
  | .hbm, ⟨20, _⟩ => ⟨S64x512, .f32⟩
  | .hbm, ⟨21, _⟩ => ⟨S64x512, .f32⟩
  | .hbm, ⟨22, _⟩ => ⟨S512x1024, .f32⟩
  | .hbm, ⟨23, _⟩ => ⟨S64x1024, .f32⟩
  | .hbm, ⟨24, _⟩ => ⟨S1x1024, .f32⟩
  | .hbm, ⟨25, _⟩ => ⟨S64x1024, .f32⟩
  | .hbm, ⟨26, _⟩ => ⟨S64x1024, .f32⟩
  | .hbm, ⟨27, _⟩ => ⟨S512x1, .f32⟩
  | .hbm, ⟨28, _⟩ => ⟨S64x1, .f32⟩
  | .hbm, ⟨29, _⟩ => ⟨S1x1, .f32⟩
  | .hbm, ⟨30, _⟩ => ⟨S64x1, .f32⟩
  | .hbm, ⟨31, _⟩ => ⟨S64x1, .f32⟩
  | .hbm, ⟨32, _⟩ => ⟨S64x1, .f32⟩
  | .hbm, ⟨33, _⟩ => ⟨S64x1, .f32⟩
  | .hbm, ⟨34, _⟩ => ⟨S_, .f32⟩
  | .hbm, ⟨35, _⟩ => ⟨S64x1, .f32⟩
  | .hbm, ⟨36, _⟩ => ⟨S64x1, .f32⟩
  | .hbm, ⟨37, _⟩ => ⟨S_, .f32⟩
  | .hbm, ⟨38, _⟩ => ⟨S64x1, .f32⟩
  | .hbm, ⟨39, _⟩ => ⟨S64x1, .f32⟩
  | .hbm, ⟨40, _⟩ => ⟨S_, .f32⟩
  | .hbm, ⟨41, _⟩ => ⟨S64x512, .f32⟩
  | .hbm, ⟨42, _⟩ => ⟨S64x512, .f32⟩
  | .hbm, ⟨43, _⟩ => ⟨S64x512, .f32⟩
  | .hbm, ⟨44, _⟩ => ⟨S_, .f32⟩
  | .hbm, ⟨45, _⟩ => ⟨S64x512, .f32⟩
  | .hbm, ⟨46, _⟩ => ⟨S64x512, .f32⟩
  | .hbm, ⟨47, _⟩ => ⟨S64x1024, .f32⟩
  | .hbm, ⟨48, _⟩ => ⟨S64x1, .f32⟩
  | .hbm, ⟨49, _⟩ => ⟨S64x1023, .f32⟩
  | .hbm, ⟨50, _⟩ => ⟨S64x1024, .f32⟩
  | .hbm, ⟨51, _⟩ => ⟨S64x1024, .f32⟩
  | .hbm, ⟨52, _⟩ => ⟨S_, .f32⟩
  | .hbm, ⟨53, _⟩ => ⟨S64x1024, .f32⟩
  | .hbm, ⟨54, _⟩ => ⟨S64x1024, .f32⟩
  | .hbm, ⟨55, _⟩ => ⟨S64x1024, .f32⟩
  | .hbm, ⟨56, _⟩ => ⟨S64x1024, .f32⟩
  | .hbm, ⟨57, _⟩ => ⟨S64x1024, .f32⟩
  | .hbm, ⟨58, _⟩ => ⟨S64x1024x1, .f32⟩
  | .hbm, ⟨59, _⟩ => ⟨S64x1x1024, .f32⟩
  | .hbm, ⟨60, _⟩ => ⟨S64x1024x1024, .f32⟩
  | .hbm, ⟨61, _⟩ => ⟨S64x1024x1024, .f32⟩
  | .hbm, ⟨62, _⟩ => ⟨S64x1024x1024, .f32⟩
  | .hbm, ⟨63, _⟩ => ⟨S64x1024x1024, .f32⟩
  | .hbm, ⟨64, _⟩ => ⟨S_, .f32⟩
  | .hbm, ⟨65, _⟩ => ⟨S64x512, .f32⟩
  | .hbm, ⟨66, _⟩ => ⟨S64x512, .f32⟩
  | .hbm, ⟨67, _⟩ => ⟨S64x512, .f32⟩
  | .hbm, ⟨68, _⟩ => ⟨S_, .f32⟩
  | .hbm, ⟨69, _⟩ => ⟨S64x512, .f32⟩
  | .hbm, ⟨70, _⟩ => ⟨S64x512, .f32⟩
  | .hbm, ⟨71, _⟩ => ⟨S64x1024, .f32⟩
  | .hbm, ⟨72, _⟩ => ⟨S64x1, .f32⟩
  | .hbm, ⟨73, _⟩ => ⟨S64x1023, .f32⟩
  | .hbm, ⟨74, _⟩ => ⟨S64x1024, .f32⟩
  | .hbm, ⟨75, _⟩ => ⟨S64x1024, .f32⟩
  | .hbm, ⟨76, _⟩ => ⟨S_, .f32⟩
  | .hbm, ⟨77, _⟩ => ⟨S64x1024, .f32⟩
  | .hbm, ⟨78, _⟩ => ⟨S64x1024, .f32⟩
  | .hbm, ⟨79, _⟩ => ⟨S1024x512, .f32⟩
  | .hbm, ⟨80, _⟩ => ⟨S64x512, .f32⟩
  | .hbm, ⟨81, _⟩ => ⟨S1x512, .f32⟩
  | .hbm, ⟨82, _⟩ => ⟨S64x512, .f32⟩
  | .hbm, ⟨83, _⟩ => ⟨S64x512, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_v22 : Ref sig .tc := ⟨.hbm, 35, rfl⟩
abbrev main_v23 : Ref sig .tc := ⟨.hbm, 36, rfl⟩
abbrev main_cst_0 : Ref sig .tc := ⟨.hbm, 37, rfl⟩
abbrev main_v24 : Ref sig .tc := ⟨.hbm, 38, rfl⟩
abbrev main_v25 : Ref sig .tc := ⟨.hbm, 39, rfl⟩
abbrev main_call0_cst : Ref sig .tc := ⟨.hbm, 40, rfl⟩
abbrev main_call0_v0 : Ref sig .tc := ⟨.hbm, 41, rfl⟩
abbrev main_v26 : Ref sig .tc := ⟨.hbm, 42, rfl⟩
abbrev main_v27 : Ref sig .tc := ⟨.hbm, 43, rfl⟩
abbrev main_call1_cst : Ref sig .tc := ⟨.hbm, 44, rfl⟩
abbrev main_call1_v0 : Ref sig .tc := ⟨.hbm, 45, rfl⟩
abbrev main_v28 : Ref sig .tc := ⟨.hbm, 46, rfl⟩
abbrev main_v29 : Ref sig .tc := ⟨.hbm, 47, rfl⟩
abbrev main_call2_v0 : Ref sig .tc := ⟨.hbm, 48, rfl⟩
abbrev main_call2_v1 : Ref sig .tc := ⟨.hbm, 49, rfl⟩
abbrev main_v30 : Ref sig .tc := ⟨.hbm, 50, rfl⟩
abbrev main_v31 : Ref sig .tc := ⟨.hbm, 51, rfl⟩
abbrev main_cst_1 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_call3_cst : Ref sig .tc := ⟨.hbm, 64, rfl⟩
abbrev main_call3_v0 : Ref sig .tc := ⟨.hbm, 65, rfl⟩
abbrev main_v43 : Ref sig .tc := ⟨.hbm, 66, rfl⟩
abbrev main_v44 : Ref sig .tc := ⟨.hbm, 67, rfl⟩
abbrev main_call4_cst : Ref sig .tc := ⟨.hbm, 68, rfl⟩
abbrev main_call4_v0 : Ref sig .tc := ⟨.hbm, 69, rfl⟩
abbrev main_v45 : Ref sig .tc := ⟨.hbm, 70, rfl⟩
abbrev main_v46 : Ref sig .tc := ⟨.hbm, 71, rfl⟩
abbrev main_call5_v0 : Ref sig .tc := ⟨.hbm, 72, rfl⟩
abbrev main_call5_v1 : Ref sig .tc := ⟨.hbm, 73, rfl⟩
abbrev main_v47 : Ref sig .tc := ⟨.hbm, 74, rfl⟩
abbrev main_v48 : Ref sig .tc := ⟨.hbm, 75, rfl⟩
abbrev main_cst_2 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  transposes_S1024x512_S512x1024_1_0 : S1024x512.Transposes [1, 0] S512x1024
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  transposes_S1x512_S512x1_1_0 : S1x512.Transposes [1, 0] S512x1
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  bcast_S_S64x512 : S_.BroadcastsInDim S64x512 (![] : Fin 0 → Fin S64x512.rank)
  concatenates_S64x512_S64x512_S64x1024_d1 : Shape.Concatenates [S64x512, S64x512] S64x1024 1
  slices_S64x1024_S64x1_0_1023 : S64x1024.Slices ![0, 1023] S64x1
  slices_S64x1024_S64x1023_0_0 : S64x1024.Slices ![0, 0] S64x1023
  concatenates_S64x1_S64x1023_S64x1024_d1 : Shape.Concatenates [S64x1, S64x1023] S64x1024 1
  reducesTo_S64x1024x1024_S64x1024_d1 : S64x1024x1024.ReducesTo [1] S64x1024
  h_S_ : 0 < S_.numel
  bcast_S64x1_S64x1024_0_1 : S64x1.BroadcastsInDim S64x1024 (![0, 1] : Fin 2 → Fin S64x1024.rank)
  bcast_S64x1024_S64x1024x1_0_1 : S64x1024.BroadcastsInDim S64x1024x1 (![0, 1] : Fin 2 → Fin S64x1024x1.rank)
  bcast_S64x1024_S64x1x1024_0_2 : S64x1024.BroadcastsInDim S64x1x1024 (![0, 2] : Fin 2 → Fin S64x1x1024.rank)
  bcast_S64x1024x1_S64x1024x1024_0_1_2 : S64x1024x1.BroadcastsInDim S64x1024x1024 (![0, 1, 2] : Fin 3 → Fin S64x1024x1024.rank)
  bcast_S64x1x1024_S64x1024x1024_0_1_2 : S64x1x1024.BroadcastsInDim S64x1024x1024 (![0, 1, 2] : Fin 3 → Fin S64x1024x1024.rank)
  reducesTo_S64x1024x1024_S64x1024_d2 : S64x1024x1024.ReducesTo [2] S64x1024
  transposes_S512x1024_S1024x512_1_0 : S512x1024.Transposes [1, 0] S1024x512
  dot_S64x512_S512x512_S64x512_1_0_0_1_n_n_wf : DotDims.WF S64x512 S512x512 S64x512 [1] [0] [0] [1] [] []
  dot_S64x512_S512x1024_S64x1024_1_0_0_1_n_n_wf : DotDims.WF S64x512 S512x1024 S64x1024 [1] [0] [0] [1] [] []
  dot_S64x512_S512x1_S64x1_1_0_0_1_n_n_wf : DotDims.WF S64x512 S512x1 S64x1 [1] [0] [0] [1] [] []
  dot_S64x1024_S1024x512_S64x512_1_0_0_1_n_n_wf : DotDims.WF S64x1024 S1024x512 S64x512 [1] [0] [0] [1] [] []

variable [Facts₀]

def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S64x512_S512x1024_S64x1024_1_0_0_1_n_n : DotDims S64x512 S512x1024 S64x1024 where
  lhsContracting := [1]
  rhsContracting := [0]
  lhsNonContracting := [0]
  rhsNonContracting := [1]
  lhsBatch := []
  rhsBatch := []
  wf := dot_S64x512_S512x1024_S64x1024_1_0_0_1_n_n_wf
def dot_S64x512_S512x1_S64x1_1_0_0_1_n_n : DotDims S64x512 S512x1 S64x1 where
  lhsContracting := [1]
  rhsContracting := [0]
  lhsNonContracting := [0]
  rhsNonContracting := [1]
  lhsBatch := []
  rhsBatch := []
  wf := dot_S64x512_S512x1_S64x1_1_0_0_1_n_n_wf
def dot_S64x1024_S1024x512_S64x512_1_0_0_1_n_n : DotDims S64x1024 S1024x512 S64x512 where
  lhsContracting := [1]
  rhsContracting := [0]
  lhsNonContracting := [0]
  rhsNonContracting := [1]
  lhsBatch := []
  rhsBatch := []
  wf := dot_S64x1024_S1024x512_S64x512_1_0_0_1_n_n_wf

class Facts : Prop extends Facts₀ where

variable [Facts]
-- ==== Proof.Head.lean ====
/-
  What the kernel's region finds in its operand arrays: the projections, one row per batch element.

  Before the region the program computes, from the inputs, the key features `kp`, the query features `qp`, the value
  `v` (each `[64, 1024]`) and the write gate `β` (`[64, 1]`), by the very operations the reference applies, and
  reshapes each to one row per batch element (`[64, 1, 1024]`, `[64, 1, 1]`) for the region's windows. The four
  projections are named here by the reference's own operation-by-operation reading at the kernel's inputs, so that
  the two programs' results are later compared over the SAME four names and the projections are never opened.
-/
import proofs.«177880_j68539088109957_1_alg».proof.Proof.Gen.KernelIdeal.Frame
import proofs.«177880_j68539088109957_1_alg».proof.Proof.Gen.ReferenceIdeal.Read
import Idealize.ShloMosaic.Lib.StableHlo.Run

set_option maxRecDepth 16384

noncomputable section

namespace Cert.KernelIdeal.Head

open Idealize.ShloMosaic Idealize.ShloMosaic.TcCoe Idealize.SL.Sem Idealize.ShloMosaic.StableHlo Cert.KernelIdeal Cert.KernelIdeal.Gen

variable (m : (ℓ : Loc nD τ sig) → Buf (Elt Ideal) ℓ)

/-- Input 0 as the region (and the whole program) finds it. -/
abbrev A0 (c : Dev nD) : FVec Ideal S64x512 .f32 := m ((c : Thread nD τ).loc main_arg0)
/-- Input 1 as the region (and the whole program) finds it. -/
abbrev A1 (c : Dev nD) : FVec Ideal S64x1024x1024 .f32 := m ((c : Thread nD τ).loc main_arg1)
/-- Input 2 as the region (and the whole program) finds it. -/
abbrev A2 (c : Dev nD) : FVec Ideal S512x512 .f32 := m ((c : Thread nD τ).loc main_arg2)
/-- Input 3 as the region (and the whole program) finds it. -/
abbrev A3 (c : Dev nD) : FVec Ideal S512 .f32 := m ((c : Thread nD τ).loc main_arg3)
/-- Input 4 as the region (and the whole program) finds it. -/
abbrev A4 (c : Dev nD) : FVec Ideal S512x512 .f32 := m ((c : Thread nD τ).loc main_arg4)
/-- Input 5 as the region (and the whole program) finds it. -/
abbrev A5 (c : Dev nD) : FVec Ideal S512 .f32 := m ((c : Thread nD τ).loc main_arg5)
/-- Input 6 as the region (and the whole program) finds it. -/
abbrev A6 (c : Dev nD) : FVec Ideal S1024x512 .f32 := m ((c : Thread nD τ).loc main_arg6)
/-- Input 7 as the region (and the whole program) finds it. -/
abbrev A7 (c : Dev nD) : FVec Ideal S1024 .f32 := m ((c : Thread nD τ).loc main_arg7)
/-- Input 8 as the region (and the whole program) finds it. -/
abbrev A8 (c : Dev nD) : FVec Ideal S512x1024 .f32 := m ((c : Thread nD τ).loc main_arg8)
/-- Input 9 as the region (and the whole program) finds it. -/
abbrev A9 (c : Dev nD) : FVec Ideal S512 .f32 := m ((c : Thread nD τ).loc main_arg9)
/-- Input 10 as the region (and the whole program) finds it. -/
abbrev A10 (c : Dev nD) : FVec Ideal S1x512 .f32 := m ((c : Thread nD τ).loc main_arg10)
/-- Input 11 as the region (and the whole program) finds it. -/
abbrev A11 (c : Dev nD) : FVec Ideal S1 .f32 := m ((c : Thread nD τ).loc main_arg11)

/-- The key features, `[64, 1024]`. -/
abbrev keys (c : Dev nD) : FVec Ideal S64x1024 .f32 := Cert.ReferenceIdeal.Read.val_main_v31 (F := Ideal) (A0 m c) (A4 m c) (A5 m c)
/-- The query features, `[64, 1024]`. -/
abbrev queries (c : Dev nD) : FVec Ideal S64x1024 .f32 := Cert.ReferenceIdeal.Read.val_main_v48 (F := Ideal) (A0 m c) (A2 m c) (A3 m c)
/-- The values, `[64, 1024]`. -/
abbrev vals (c : Dev nD) : FVec Ideal S64x1024 .f32 := Cert.ReferenceIdeal.Read.val_main_v14 (F := Ideal) (A0 m c) (A6 m c) (A7 m c)
/-- The write gate, `[64, 1]`. -/
abbrev gate (c : Dev nD) : FVec Ideal S64x1 .f32 := Cert.ReferenceIdeal.Read.val_main_v25 (F := Ideal) (A0 m c) (A10 m c) (A11 m c)

set_option maxHeartbeats 8000000 in
/-- Window 0's array: the key features, one row per batch element. -/
theorem V_keys (c : Dev nD) :
    (V m c main_v38 : S64x1x1024.Idx → EReal) = shapeCast S64x1x1024 (keys m c) shapeCasts_S64x1024_S64x1x1024 := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxHeartbeats 8000000 in
/-- Window 1's array: the query features, one row per batch element. -/
theorem V_queries (c : Dev nD) :
    (V m c main_v39 : S64x1x1024.Idx → EReal) = shapeCast S64x1x1024 (queries m c) shapeCasts_S64x1024_S64x1x1024 := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxHeartbeats 8000000 in
/-- Window 2's array: the values, one row per batch element. -/
theorem V_vals (c : Dev nD) :
    (V m c main_v40 : S64x1x1024.Idx → EReal) = shapeCast S64x1x1024 (vals m c) shapeCasts_S64x1024_S64x1x1024 := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxHeartbeats 8000000 in
/-- Window 3's array: the write gate, one cell per batch element. -/
theorem V_gate (c : Dev nD) :
    (V m c main_v41 : S64x1x1.Idx → EReal) = shapeCast S64x1x1 (gate m c) shapeCasts_S64x1_S64x1x1 := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

/-- Window 4's array: the fast-weight matrices, as launched. -/
theorem V_mats (c : Dev nD) : (V m c main_arg1 : S64x1024x1024.Idx → EReal) = A1 m c := V_main_arg1 m c

end Cert.KernelIdeal.Head

end
-- ==== Proof.LibColumn.lean ====
/-
  Column-shaped values read at an index given by coordinates, and a lane sum read as a finite sum.

  A row-wise reduction that keeps its axis (`sum(…, axis=1, keepdims=True)`) leaves an `[a, 1]` column. Three re-layings
  of such a column occur whenever it meets a full `[a, b]` tile: the cast of the `[a]` vector of sums to the column, the
  column broadcast along the rows of the tile, and (for the other operand's sums) the column transposed to a `[1, b]` row,
  which the library's `transpose_ix2_apply` and `broadcastTo_1b_ab_apply` already read. Each lemma states what the
  re-laid value holds at `(p, c)` in terms of the original vector, for indices built by `ix1` / `ix2`, so that it applies
  to a printed operation by unification. Generic in the extents and in the element type.
-/
import Idealize.ShloMosaic.Lib.ValueLayout
import Idealize.ShloMosaic.PureOps.Ideal.Laws

namespace Cert.Lib.Column

open Idealize.ShloMosaic Idealize.ShloMosaic.ValueIdx

variable {α : Type}

/-- An `[a]` vector cast to the column `[a, 1]` reads, at `(i, u)`, the vector's entry `i`, whatever the unit
    coordinate `u`: both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`: every column of the
    result is the operand. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of an `[a, d]` block (a float `multi_reduction <add>` over axis 1 from the neutral
    accumulator), read on the extended reals at row `i`, is the finite sum of the row's `d` entries. -/
theorem rowSum_apply {φ : FTy} {a d : ℕ} (src : FVec Ideal ⟨2, ![a, d]⟩ φ) (acc : BitVec φ.bits)
    (h : (⟨2, ![a, d]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin d, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Column
-- ==== Proof.LibAxisSum.lean ====
/-
  A sum along the columns of a block, read as a finite sum.

  The companion of the row sum: a float `multi_reduction <add>` over axis 0 of an `[a, d]` block from the neutral
  accumulator leaves a `[d]` vector whose entry `j`, on the extended reals, is the finite sum of column `j`'s `a`
  entries. Stated for an index built by `ix1`, so that it applies to a printed operation by unification. Generic in
  the extents and the float format.
-/
import Idealize.ShloMosaic.Lib.ValueIdx
import Idealize.ShloMosaic.PureOps.Ideal.Laws

namespace Cert.Lib.AxisSum

open Idealize.ShloMosaic Idealize.ShloMosaic.ValueIdx

/-- The sum down the columns of an `[a, d]` block (axis 0), at column `j`, is the finite sum of that column's
    `a` entries. -/
theorem colSum_apply {φ : FTy} {a d : ℕ} (src : FVec Ideal ⟨2, ![a, d]⟩ φ) (acc : BitVec φ.bits)
    (h : (⟨2, ![a, d]⟩ : Shape).Reduces [0] ⟨1, ![d]⟩) (hφ : FKind.Formats φ) (hacc : acc = FKind.add.neutral φ hφ) (j : Fin d) :
    multiReduction .add [0] ⟨1, ![d]⟩ src acc h hφ hacc (ix1 j) = ∑ k : Fin a, src (ix2 k j) :=
  (Ideal.multiReduction_add_single src acc h hφ hacc (ix1 j)).trans
    (Finset.sum_congr rfl fun k _ => congrArg src (funext fun c => Fin.ext (by
      match c with
      | ⟨0, _⟩ => rfl
      | ⟨1, _⟩ => rfl)))

end Cert.Lib.AxisSum
-- ==== Proof.Body.lean ====
/-
  What the kernel body computes at one grid point, entry by entry, on the extended reals.

  At a grid point the body holds one batch element: the fast-weight matrix `W` (a `[1, 1024, 1024]` block), the key
  features `kp`, the query features `qp` and the value `v` (each a `[1, 1, 1024]` row) and the write gate `β`
  (a `[1, 1, 1]` cell). With `colsum i = ∑ k, W k i` the body forms the write strength of position `i`,
      dv i = β * (v i - colsum i * kp i),
  stores the updated matrix `W i j + dv i * kp j`, and stores the read row
      qp i * ((∑ k, W i k) + dv i * ∑ k, kp k).
  Every layout step in between (dropping or adding a unit axis, laying a row along the columns or a column along the
  rows, turning a column into a row) only renames coordinates, so each lemma below is a chain of such renamings
  around the three sums.
-/
import proofs.«177880_j68539088109957_1_alg».proof.Proof.Gen.KernelIdeal.Skeleton
import proofs.«177880_j68539088109957_1_alg».proof.Proof.LibColumn
import proofs.«177880_j68539088109957_1_alg».proof.Proof.LibAxisSum
import Idealize.ShloMosaic.Lib.ValueIdx
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen Cert.Lib.Column Cert.Lib.AxisSum

variable (w : FVec Ideal S1x1024x1024 .f32) (kp qp v : FVec Ideal S1x1x1024 .f32) (β : FVec Ideal S1x1x1 .f32)

/-- The write strength of position `i`: the gate times (the value minus the column sum times the key feature). -/
def dv (i : Fin 1024) : EReal :=
  β (ix3 (0 : Fin 1) (0 : Fin 1) (0 : Fin 1)) * (v (ix3 (0 : Fin 1) (0 : Fin 1) i) - (∑ k : Fin 1024, w (ix3 (0 : Fin 1) k i)) * kp (ix3 (0 : Fin 1) (0 : Fin 1) i))

/-- The matrix block with its unit axis dropped. -/
theorem mat_apply (i j : Fin 1024) : k0_pay2 (F := Ideal) w (ix2 i j) = w (ix3 (0 : Fin 1) i j) :=
  shapeCast_1ab_ab_apply w shapeCasts_S1x1024x1024_S1024x1024 i j

/-- A feature row with its leading unit axis dropped. -/
theorem row_apply (x : FVec Ideal S1x1x1024 .f32) (j : Fin 1024) : k0_pay3 (F := Ideal) x (ix2 (0 : Fin 1) j) = x (ix3 (0 : Fin 1) (0 : Fin 1) j) :=
  shapeCast_1ab_ab_apply x shapeCasts_S1x1x1024_S1x1024 (0 : Fin 1) j

/-- The body's write-strength row at position `i`. -/
theorem strength_apply (i : Fin 1024) : k0_pay4 (F := Ideal) w kp v β (ix2 (0 : Fin 1) i) = dv w kp v β i := by
  have hβ : broadcastTo S1x1024 (shapeCast S1x1 β shapeCasts_S1x1x1_S1x1) broadcasts_S1x1_S1x1024 (ix2 (0 : Fin 1) i)
      = β (ix3 (0 : Fin 1) (0 : Fin 1) (0 : Fin 1)) :=
    (broadcastTo_a1_ab_apply _ broadcasts_S1x1_S1x1024 (0 : Fin 1) i).trans
      (shapeCast_1ab_ab_apply β shapeCasts_S1x1x1_S1x1 (0 : Fin 1) (0 : Fin 1))
  have hv : shapeCast S1x1024 v shapeCasts_S1x1x1024_S1x1024 (ix2 (0 : Fin 1) i) = v (ix3 (0 : Fin 1) (0 : Fin 1) i) :=
    shapeCast_1ab_ab_apply v shapeCasts_S1x1x1024_S1x1024 (0 : Fin 1) i
  have hc : shapeCast S1x1024 (multiReduction .add [0] S1024 (k0_pay2 (F := Ideal) w) 0x00000000#32 reduces_S1024x1024_S1024 (.inl rfl) rfl)
      shapeCasts_S1024_S1x1024 (ix2 (0 : Fin 1) i) = ∑ k : Fin 1024, w (ix3 (0 : Fin 1) k i) :=
    (shapeCast_a_1a_apply _ shapeCasts_S1024_S1x1024 (0 : Fin 1) i).trans
      ((colSum_apply (k0_pay2 (F := Ideal) w) 0x00000000#32 reduces_S1024x1024_S1024 (.inl rfl) rfl i).trans
        (Finset.sum_congr rfl fun k _ => mat_apply w k i))
  exact congrArg₂ (· * ·) hβ (congrArg₂ (· - ·) hv (congrArg₂ (· * ·) hc (row_apply kp i)))

/-- The updated matrix block at `(i, j)`: the old entry plus the write strength of row `i` times the key feature of
    column `j`. -/
theorem update_apply (i j : Fin 1024) :
    k0_pay6 (F := Ideal) w kp v β (ix3 (0 : Fin 1) i j) = w (ix3 (0 : Fin 1) i j) + dv w kp v β i * kp (ix3 (0 : Fin 1) (0 : Fin 1) j) := by
  have hd : broadcastTo S1024x1024 (transpose S1024x1 [1, 0] (k0_pay4 (F := Ideal) w kp v β) transposes_S1x1024_p1_0_S1024x1) broadcasts_S1024x1_S1024x1024 (ix2 i j)
      = dv w kp v β i :=
    (broadcastTo_a1_ab_apply _ broadcasts_S1024x1_S1024x1024 i j).trans
      ((transpose_ix2_apply (k0_pay4 (F := Ideal) w kp v β) transposes_S1x1024_p1_0_S1024x1 i (0 : Fin 1)).trans (strength_apply w kp v β i))
  have hk : broadcastTo S1024x1024 (k0_pay3 (F := Ideal) kp) broadcasts_S1x1024_S1024x1024 (ix2 i j) = kp (ix3 (0 : Fin 1) (0 : Fin 1) j) :=
    (broadcastTo_1b_ab_apply _ broadcasts_S1x1024_S1024x1024 i j).trans (row_apply kp j)
  exact (shapeCast_ab_1ab_apply
      (addf (k0_pay2 (F := Ideal) w)
        (mulf (broadcastTo S1024x1024 (transpose S1024x1 [1, 0] (k0_pay4 (F := Ideal) w kp v β) transposes_S1x1024_p1_0_S1024x1) broadcasts_S1024x1_S1024x1024)
          (broadcastTo S1024x1024 (k0_pay3 (F := Ideal) kp) broadcasts_S1x1024_S1024x1024)))
      shapeCasts_S1024x1024_S1x1024x1024 (0 : Fin 1) i j).trans
    (congrArg₂ (· + ·) (mat_apply w i j) (congrArg₂ (· * ·) hd hk))

/-- The read row at position `i`: the query feature times (the row sum of the old matrix plus the write strength
    times the sum of the key features). -/
theorem read_apply (i : Fin 1024) :
    k0_pay1 (F := Ideal) (k0_pay5 (F := Ideal) w kp qp v β) (ix3 (0 : Fin 1) (0 : Fin 1) i)
      = qp (ix3 (0 : Fin 1) (0 : Fin 1) i) * ((∑ k : Fin 1024, w (ix3 (0 : Fin 1) i k)) + dv w kp v β i * ∑ k : Fin 1024, kp (ix3 (0 : Fin 1) (0 : Fin 1) k)) := by
  have hq : shapeCast S1x1024 qp shapeCasts_S1x1x1024_S1x1024 (ix2 (0 : Fin 1) i) = qp (ix3 (0 : Fin 1) (0 : Fin 1) i) :=
    shapeCast_1ab_ab_apply qp shapeCasts_S1x1x1024_S1x1024 (0 : Fin 1) i
  have hr : transpose S1x1024 [1, 0] (shapeCast S1024x1 (multiReduction .add [1] S1024 (k0_pay2 (F := Ideal) w) 0x00000000#32 reduces_S1024x1024_S1024_2 (.inl rfl) rfl) shapeCasts_S1024_S1024x1)
      transposes_S1024x1_p1_0_S1x1024 (ix2 (0 : Fin 1) i) = ∑ k : Fin 1024, w (ix3 (0 : Fin 1) i k) :=
    (transpose_ix2_apply _ transposes_S1024x1_p1_0_S1x1024 (0 : Fin 1) i).trans
      ((shapeCast_a_a1_apply _ shapeCasts_S1024_S1024x1 i (0 : Fin 1)).trans
        ((rowSum_apply (k0_pay2 (F := Ideal) w) 0x00000000#32 reduces_S1024x1024_S1024_2 (.inl rfl) rfl i).trans
          (Finset.sum_congr rfl fun k _ => mat_apply w i k)))
  have hs : broadcastTo S1x1024 (shapeCast S1x1 (multiReduction .add [1] S1 (k0_pay3 (F := Ideal) kp) 0x00000000#32 reduces_S1x1024_S1 (.inl rfl) rfl) shapeCasts_S1_S1x1)
      broadcasts_S1x1_S1x1024 (ix2 (0 : Fin 1) i) = ∑ k : Fin 1024, kp (ix3 (0 : Fin 1) (0 : Fin 1) k) :=
    (broadcastTo_a1_ab_apply _ broadcasts_S1x1_S1x1024 (0 : Fin 1) i).trans
      ((shapeCast_a_1a_apply _ shapeCasts_S1_S1x1 (0 : Fin 1) (0 : Fin 1)).trans
        ((rowSum_apply (k0_pay3 (F := Ideal) kp) 0x00000000#32 reduces_S1x1024_S1 (.inl rfl) rfl (0 : Fin 1)).trans
          (Finset.sum_congr rfl fun k _ => row_apply kp k)))
  exact (shapeCast_ab_1ab_apply (k0_pay5 (F := Ideal) w kp qp v β) shapeCasts_S1x1024_S1x1x1024 (0 : Fin 1) (0 : Fin 1) i).trans
    (congrArg₂ (· * ·) hq (congrArg₂ (· + ·) hr (congrArg₂ (· * ·) (strength_apply w kp v β i) hs)))

end Cert.KernelIdeal.Body

end
-- ==== Proof.LibConcatAll.lean ====
/-
  A property of every entry of every piece is a property of every entry of their concatenation.

  A concatenation along an axis reads each of its entries from exactly one of the pieces: the piece whose span along
  the axis holds the entry's coordinate. Which piece, and where in it, does not matter for a property that ALL
  entries of ALL pieces share (a sign, a bound): the concatenation inherits it. Generic in the element type, the
  shapes, the axis and the number of pieces.
-/
import Idealize.ShloMosaic.PureOps.ShapeOps

namespace Cert.Lib.ConcatAll

open Idealize.ShloMosaic

/-- If `P` holds of every entry of every piece, it holds of every entry of the concatenation. -/
theorem concatenate_forall {α : Type} {t : Shape} (a : Fin t.rank) (xs : List ((s : Shape) × (s.Idx → α)))
    (h : Shape.Concatenates (xs.map (·.1)) t a) (P : α → Prop) (hP : ∀ p ∈ xs, ∀ i, P (p.2 i)) (j : t.Idx) :
    P (concatenate t a xs h j) := by
  unfold concatenate
  exact hP _ (List.getElem_mem _) _

end Cert.Lib.ConcatAll
-- ==== Proof.RefSide.lean ====
/-
  The reference's two results read entry by entry, and the sign of the key features.

  The reference forms the same write strength as the kernel,
      strength b i = β b * (v b i - (∑ k, W b k i) * kp b i),
  adds the outer product to the fast-weight matrix, `W b i j + strength b i * kp b j`, and reads row `i` of the
  UPDATED matrix against the query feature: `(∑ j, W' b i j) * qp b i`. Here `kp`, `qp`, `v` and `β` are the
  projections both programs compute from the inputs by the same host operations; they are kept as the names the
  reference's operation-by-operation reading gives them and never opened, except for one fact: a key feature is a
  product of two rectified values (each `max · 0`, one of them taken one position to the left, cyclically), hence
  non-negative. The two sums start from the zero word, which is `0`.
-/
import proofs.«177880_j68539088109957_1_alg».proof.Proof.Gen.ReferenceIdeal.Read
import proofs.«177880_j68539088109957_1_alg».proof.Proof.LibConcatAll
import Idealize.ShloMosaic.Lib.ValueIdx
import Idealize.ShloMosaic.PureOps.Ideal.Laws

noncomputable section

namespace Cert.ReferenceIdeal.RefValue

open Idealize.ShloMosaic Idealize.ShloMosaic.ValueIdx Cert.ReferenceIdeal Cert.ReferenceIdeal.Read Cert.Lib.ConcatAll

variable (x0 : FVec Ideal S64x512 .f32) (x1 : FVec Ideal S64x1024x1024 .f32) (x2 : FVec Ideal S512x512 .f32)
  (x3 : FVec Ideal S512 .f32) (x4 : FVec Ideal S512x512 .f32) (x5 : FVec Ideal S512 .f32) (x6 : FVec Ideal S1024x512 .f32)
  (x7 : FVec Ideal S1024 .f32) (x10 : FVec Ideal S1x512 .f32) (x11 : FVec Ideal S1 .f32)

/-! ## The key features are non-negative -/

/-- The rectified key projection and its negative's, laid side by side: every entry is a `max · 0`. -/
theorem rectified_nonneg (i : S64x1024.Idx) : 0 ≤ val_main_v29 (F := Ideal) x0 x4 x5 i := by
  unfold val_main_v29
  refine concatenate_forall _ _ _ (fun e : EReal => 0 ≤ e) ?_ i
  intro p hp y
  simp only [List.mem_cons, List.mem_nil_iff, or_false] at hp
  rcases hp with rfl | rfl
  · show 0 ≤ val_main_v26 (F := Ideal) x0 x4 x5 y
    rw [val_main_v26_apply, val_main_call0_v0_apply, val_main_call0_cst_apply]
    simp only [Ideal.maximumf_def, Ideal.ofBits_def, Ideal.ofBits_zero_f32]
    exact le_max_right _ _
  · show 0 ≤ val_main_v28 (F := Ideal) x0 x4 x5 y
    rw [val_main_v28_apply, val_main_call1_v0_apply, val_main_call1_cst_apply]
    simp only [Ideal.maximumf_def, Ideal.ofBits_def, Ideal.ofBits_zero_f32]
    exact le_max_right _ _

/-- The same row taken one position to the left, cyclically (its last entry, then all the others): its entries are
    entries of the rectified row. -/
theorem shifted_nonneg (i : S64x1024.Idx) : 0 ≤ val_main_v30 (F := Ideal) x0 x4 x5 i := by
  unfold val_main_v30
  refine concatenate_forall _ _ _ (fun e : EReal => 0 ≤ e) ?_ i
  intro p hp y
  simp only [List.mem_cons, List.mem_nil_iff, or_false] at hp
  rcases hp with rfl | rfl
  · show 0 ≤ val_main_call2_v0 (F := Ideal) x0 x4 x5 y
    rw [val_main_call2_v0_apply]
    exact rectified_nonneg x0 x4 x5 _
  · show 0 ≤ val_main_call2_v1 (F := Ideal) x0 x4 x5 y
    rw [val_main_call2_v1_apply]
    exact rectified_nonneg x0 x4 x5 _

/-- A key feature, the product of the two, is non-negative. -/
theorem key_nonneg (i : S64x1024.Idx) : 0 ≤ val_main_v31 (F := Ideal) x0 x4 x5 i := by
  rw [val_main_v31_apply]
  exact EReal.mul_nonneg (rectified_nonneg x0 x4 x5 i) (shifted_nonneg x0 x4 x5 i)

/-! ## The two results at an index -/

/-- The write strength of position `i` of batch element `b`. -/
def strength (b : Fin 64) (i : Fin 1024) : EReal :=
  val_main_v25 (F := Ideal) x0 x10 x11 (ix2 b (0 : Fin 1))
    * (val_main_v14 (F := Ideal) x0 x6 x7 (ix2 b i) - (∑ k : Fin 1024, x1 (ix3 b k i)) * val_main_v31 (F := Ideal) x0 x4 x5 (ix2 b i))

/-- The updated matrix at `(b, i, j)`. -/
theorem updated_apply (b : Fin 64) (i j : Fin 1024) :
    val_main_v42 (F := Ideal) x0 x1 x4 x5 x6 x7 x10 x11 (ix3 b i j)
      = x1 (ix3 b i j) + strength x0 x1 x4 x5 x6 x7 x10 x11 b i * val_main_v31 (F := Ideal) x0 x4 x5 (ix2 b j) := by
  have e39 : idx_main_v39 (ix3 b i j) = ix3 b i (0 : Fin 1) := funext fun a => Fin.ext (by match a with | ⟨0, _⟩ => rfl | ⟨1, _⟩ => rfl | ⟨2, _⟩ => rfl)
  have e37 : idx_main_v37 (ix3 b i (0 : Fin 1)) = ix2 b i := funext fun a => Fin.ext (by match a with | ⟨0, _⟩ => rfl | ⟨1, _⟩ => rfl)
  have e40 : idx_main_v40 (ix3 b i j) = ix3 b (0 : Fin 1) j := funext fun a => Fin.ext (by match a with | ⟨0, _⟩ => rfl | ⟨1, _⟩ => rfl | ⟨2, _⟩ => rfl)
  have e38 : idx_main_v38 (ix3 b (0 : Fin 1) j) = ix2 b j := funext fun a => Fin.ext (by match a with | ⟨0, _⟩ => rfl | ⟨1, _⟩ => rfl)
  have e35 : idx_main_v35 (ix2 b i) = ix2 b (0 : Fin 1) := funext fun a => Fin.ext (by match a with | ⟨0, _⟩ => rfl | ⟨1, _⟩ => rfl)
  have e32 : ∀ k : Fin 1024, idx_main_v32 (ix2 b i) k = ix3 b k i := fun k => funext fun a => Fin.ext (by match a with | ⟨0, _⟩ => rfl | ⟨1, _⟩ => rfl | ⟨2, _⟩ => rfl)
  rw [val_main_v42_apply, val_main_v41_apply, val_main_v39_apply, e39, val_main_v37_apply, e37, val_main_v40_apply, e40,
    val_main_v38_apply, e38, val_main_v36_apply, val_main_v35_apply, e35, val_main_v34_apply, val_main_v33_apply,
    val_main_v32_apply]
  simp only [e32, val_main_cst_1_apply, strength, Ideal.addf_def, Ideal.mulf_def, Ideal.subf_def, Ideal.ofBits_def,
    Ideal.ofBits_zero_f32, zero_add]

/-- The read row at `(b, i)`: the sum of the updated matrix's row `i`, times the query feature. -/
theorem read_apply (b : Fin 64) (i : Fin 1024) :
    val_main_v50 (F := Ideal) x0 x1 x2 x3 x4 x5 x6 x7 x10 x11 (ix2 b i)
      = (∑ j : Fin 1024, val_main_v42 (F := Ideal) x0 x1 x4 x5 x6 x7 x10 x11 (ix3 b i j)) * val_main_v48 (F := Ideal) x0 x2 x3 (ix2 b i) := by
  have e49 : ∀ k : Fin 1024, idx_main_v49 (ix2 b i) k = ix3 b i k := fun k => funext fun a => Fin.ext (by match a with | ⟨0, _⟩ => rfl | ⟨1, _⟩ => rfl | ⟨2, _⟩ => rfl)
  rw [val_main_v50_apply, val_main_v49_apply]
  simp only [e49, val_main_cst_2_apply, Ideal.mulf_def, Ideal.ofBits_def, Ideal.ofBits_zero_f32, zero_add]

/-! ## The output projection -/

/-- What both programs do last with the read rows `r`: multiply by the transposed output weights and add the output
    bias along every row. One function of `r`, so that equal read rows give equal outputs without opening it. -/
def project (r : FVec Ideal S64x1024 .f32) (x8 : FVec Ideal S512x1024 .f32) (x9 : FVec Ideal S512 .f32) : FVec Ideal S64x512 .f32 :=
  addf (Host.dotGeneral (F := Ideal) (φ₁ := .f32) (φ₂ := .f32) dot_S64x1024_S1024x512_S64x512_1_0_0_1_n_n none r (val_main_v51 (F := Ideal) x8))
    (val_main_v54 (F := Ideal) x9)

/-- The reference's first result is the projection of its read rows. -/
theorem out_eq_project (x8 : FVec Ideal S512x1024 .f32) (x9 : FVec Ideal S512 .f32) :
    val_main_v55 (F := Ideal) x0 x1 x2 x3 x4 x5 x6 x7 x8 x9 x10 x11
      = project (val_main_v50 (F := Ideal) x0 x1 x2 x3 x4 x5 x6 x7 x10 x11) x8 x9 := rfl

end Cert.ReferenceIdeal.RefValue

end
-- ==== Proof.Law.lean ====
/-
  The one algebraic law of this certificate, on the extended reals.

  Row `i` of the updated fast-weight matrix is `w j + d * k j` over the columns `j`: the old row plus the write
  strength `d` of that row times the key feature `k j`. One side sums the updated row and then scales by the query
  feature `q`; the other sums the old row and the key features separately, `q * (∑ w + d * ∑ k)`. The two agree when
  the factor `d` may be moved across the sum of the `k j`. On the extended reals a product distributes over a sum of
  NON-NEGATIVE terms whatever the factor is (no `⊤ + ⊥` can arise among them), and the key features are non-negative:
  each is a product of two rectified values. Splitting `∑ (w j + d * k j)` into two sums needs nothing: addition on
  the extended reals is commutative and associative.
-/
import Idealize.ShloMosaic.PureOps.Ideal.Laws

namespace Cert.FastWeight

/-- A factor moves across a finite sum of non-negative extended reals. -/
theorem mul_sum_of_nonneg {ι : Type} (s : Finset ι) (d : EReal) (k : ι → EReal) (hk : ∀ j ∈ s, 0 ≤ k j) :
    d * ∑ j ∈ s, k j = ∑ j ∈ s, d * k j := by
  classical
  induction s using Finset.induction_on with
  | empty => simp
  | insert a s ha ih =>
    rw [Finset.sum_insert ha, Finset.sum_insert ha,
      EReal.left_distrib_of_nonneg (hk a (Finset.mem_insert_self a s))
        (Finset.sum_nonneg fun j hj => hk j (Finset.mem_insert_of_mem hj)),
      ih fun j hj => hk j (Finset.mem_insert_of_mem hj)]

/-- The sum of an updated row, scaled by `q`, is `q` times (the old row's sum plus the write strength times the sum
    of the key features), when the key features are non-negative. -/
theorem row_read {n : ℕ} (w k : Fin n → EReal) (d q : EReal) (hk : ∀ j, 0 ≤ k j) :
    (∑ j, (w j + d * k j)) * q = q * ((∑ j, w j) + d * ∑ j, k j) := by
  rw [Finset.sum_add_distrib, mul_sum_of_nonneg Finset.univ d k (fun j _ => hk j), mul_comm]

end Cert.FastWeight
-- ==== Proof.LibMidUnit.lean ====
/-
  A unit axis inserted between two axes, or dropped from between them, by a shape cast.

  Reshaping `[a, b]` to `[a, 1, b]` (a batch of rows presented one row at a time) moves no element: in row-major
  order `(i, u, j)` of the result and `(i, j)` of the operand have the same position whatever the unit coordinate
  `u`. The converse cast reads `(i, j)` at `(i, 0, j)`. Stated for indices built by coordinates, generic in the
  extents and in the element type.
-/
import Idealize.ShloMosaic.Lib.ValueLayout

namespace Cert.Lib.MidUnit

open Idealize.ShloMosaic Idealize.ShloMosaic.ValueIdx

variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Cert.Lib.MidUnit
-- ==== Proof.Blocks.lean ====
/-
  From what each grid point writes back to the two result arrays after the run.

  Grid point `b` works on batch element `b`: every window's block at that point is slice `b` of its array, whole
  along the other axes. So what the body leaves in the two output buffers (the updated matrix, the read row) is
  slice `b` of ONE whole-array function of the inputs, and the 64 slices tile each result array: after the run the
  first result array is the reference's updated matrix and the second is the reference's read rows, presented one
  row per batch element. The read row is where the two programs differ in arrangement: the kernel has
  `qp * (rowsum + strength * ksum)`, the reference `(∑ updated row) * qp`; they agree because the key features are
  non-negative.
-/
import proofs.«177880_j68539088109957_1_alg».proof.Proof.Head
import proofs.«177880_j68539088109957_1_alg».proof.Proof.Body
import proofs.«177880_j68539088109957_1_alg».proof.Proof.RefSide
import proofs.«177880_j68539088109957_1_alg».proof.Proof.Law
import proofs.«177880_j68539088109957_1_alg».proof.Proof.LibMidUnit
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Head Cert.Lib.MidUnit

variable (m : (ℓ : Loc nD τ sig) → Buf (Elt Ideal) ℓ)

theorem origin3 : (![0, 0, 0] : Fin 3 → Nat) = fun _ => 0 := funext fun a => by fin_cases a <;> rfl

/-- The batch element grid point `t` works on. -/
abbrev pt (t : Fin cfg0.N) : Fin 64 := ⟨t.val, lt_of_lt_of_eq t.isLt N_0⟩

/-- Every window's block at point `t` is slice `t` along the batch axis and the first (only) block along the others. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0) :=
  (by decide +kernel : ∀ t : Fin grid0.N, _)

/-! ## The input blocks, read off the arrays -/

/-- The key-feature row of point `t` is row `t` of the key features. -/
theorem blk_key (c : Dev nD) (t : Fin cfg0.N) (j : Fin 1024) :
    iblk m c 0 t (ix3 (0 : Fin 1) (0 : Fin 1) j) = keys m c (ix2 (pt t) j) := by
  unfold iblk
  show (V m c main_v38 : S64x1x1024.Idx → EReal) (((cfg0.win 0).blk t).view.emb (ix3 (0 : Fin 1) (0 : Fin 1) j)) = _
  have he : ((cfg0.win 0).blk t).view.emb (ix3 (0 : Fin 1) (0 : Fin 1) j) = ix3 (pt t) (0 : Fin 1) j := by
    obtain ⟨⟨e0, e1, e2⟩, -, -, -, -, -, -⟩ := idx_facts t
    funext a; apply Fin.ext
    match a with
    | ⟨0, _⟩ => show win0_0.index t (0 : Fin 3) * 1 + 1 * 0 = t.val; omega
    | ⟨1, _⟩ => show win0_0.index t (1 : Fin 3) * 1 + 1 * 0 = 0; omega
    | ⟨2, _⟩ => show win0_0.index t (2 : Fin 3) * 1024 + 1 * j.val = j.val; omega
  rw [he, V_keys]
  exact shapeCast_ab_a1b_apply (keys m c) shapeCasts_S64x1024_S64x1x1024 (pt t) (0 : Fin 1) j

/-- The query-feature row of point `t` is row `t` of the query features. -/
theorem blk_query (c : Dev nD) (t : Fin cfg0.N) (j : Fin 1024) :
    iblk m c 1 t (ix3 (0 : Fin 1) (0 : Fin 1) j) = queries m c (ix2 (pt t) j) := by
  unfold iblk
  show (V m c main_v39 : S64x1x1024.Idx → EReal) (((cfg0.win 1).blk t).view.emb (ix3 (0 : Fin 1) (0 : Fin 1) j)) = _
  have he : ((cfg0.win 1).blk t).view.emb (ix3 (0 : Fin 1) (0 : Fin 1) j) = ix3 (pt t) (0 : Fin 1) j := by
    obtain ⟨-, ⟨e0, e1, e2⟩, -, -, -, -, -⟩ := idx_facts t
    funext a; apply Fin.ext
    match a with
    | ⟨0, _⟩ => show win0_1.index t (0 : Fin 3) * 1 + 1 * 0 = t.val; omega
    | ⟨1, _⟩ => show win0_1.index t (1 : Fin 3) * 1 + 1 * 0 = 0; omega
    | ⟨2, _⟩ => show win0_1.index t (2 : Fin 3) * 1024 + 1 * j.val = j.val; omega
  rw [he, V_queries]
  exact shapeCast_ab_a1b_apply (queries m c) shapeCasts_S64x1024_S64x1x1024 (pt t) (0 : Fin 1) j

/-- The value row of point `t` is row `t` of the values. -/
theorem blk_val (c : Dev nD) (t : Fin cfg0.N) (j : Fin 1024) :
    iblk m c 2 t (ix3 (0 : Fin 1) (0 : Fin 1) j) = vals m c (ix2 (pt t) j) := by
  unfold iblk
  show (V m c main_v40 : S64x1x1024.Idx → EReal) (((cfg0.win 2).blk t).view.emb (ix3 (0 : Fin 1) (0 : Fin 1) j)) = _
  have he : ((cfg0.win 2).blk t).view.emb (ix3 (0 : Fin 1) (0 : Fin 1) j) = ix3 (pt t) (0 : Fin 1) j := by
    obtain ⟨-, -, ⟨e0, e1, e2⟩, -, -, -, -⟩ := idx_facts t
    funext a; apply Fin.ext
    match a with
    | ⟨0, _⟩ => show win0_2.index t (0 : Fin 3) * 1 + 1 * 0 = t.val; omega
    | ⟨1, _⟩ => show win0_2.index t (1 : Fin 3) * 1 + 1 * 0 = 0; omega
    | ⟨2, _⟩ => show win0_2.index t (2 : Fin 3) * 1024 + 1 * j.val = j.val; omega
  rw [he, V_vals]
  exact shapeCast_ab_a1b_apply (vals m c) shapeCasts_S64x1024_S64x1x1024 (pt t) (0 : Fin 1) j

/-- The gate cell of point `t` is entry `t` of the write gate. -/
theorem blk_gate (c : Dev nD) (t : Fin cfg0.N) :
    iblk m c 3 t (ix3 (0 : Fin 1) (0 : Fin 1) (0 : Fin 1)) = gate m c (ix2 (pt t) (0 : Fin 1)) := by
  unfold iblk
  show (V m c main_v41 : S64x1x1.Idx → EReal) (((cfg0.win 3).blk t).view.emb (ix3 (0 : Fin 1) (0 : Fin 1) (0 : Fin 1))) = _
  have he : ((cfg0.win 3).blk t).view.emb (ix3 (0 : Fin 1) (0 : Fin 1) (0 : Fin 1)) = ix3 (pt t) (0 : Fin 1) (0 : Fin 1) := by
    obtain ⟨-, -, -, ⟨e0, e1, e2⟩, -, -, -⟩ := idx_facts t
    funext a; apply Fin.ext
    match a with
    | ⟨0, _⟩ => show win0_3.index t (0 : Fin 3) * 1 + 1 * 0 = t.val; omega
    | ⟨1, _⟩ => show win0_3.index t (1 : Fin 3) * 1 + 1 * 0 = 0; omega
    | ⟨2, _⟩ => show win0_3.index t (2 : Fin 3) * 1 + 1 * 0 = 0; omega
  rw [he, V_gate]
  exact shapeCast_ab_a1b_apply (gate m c) shapeCasts_S64x1_S64x1x1 (pt t) (0 : Fin 1) (0 : Fin 1)

/-- The matrix block of point `t` is matrix `t`. -/
theorem blk_mat (c : Dev nD) (t : Fin cfg0.N) (i j : Fin 1024) :
    iblk m c 4 t (ix3 (0 : Fin 1) i j) = A1 m c (ix3 (pt t) i j) := by
  unfold iblk
  show (V m c main_arg1 : S64x1024x1024.Idx → EReal) (((cfg0.win 4).blk t).view.emb (ix3 (0 : Fin 1) i j)) = _
  have he : ((cfg0.win 4).blk t).view.emb (ix3 (0 : Fin 1) i j) = ix3 (pt t) i j := by
    obtain ⟨-, -, -, -, ⟨e0, e1, e2⟩, -, -⟩ := idx_facts t
    funext a; apply Fin.ext
    match a with
    | ⟨0, _⟩ => show win0_4.index t (0 : Fin 3) * 1 + 1 * 0 = t.val; omega
    | ⟨1, _⟩ => show win0_4.index t (1 : Fin 3) * 1024 + 1 * i.val = i.val; omega
    | ⟨2, _⟩ => show win0_4.index t (2 : Fin 3) * 1024 + 1 * j.val = j.val; omega
  rw [he, V_mats]

/-- The body's write strength at point `t` is the reference's for batch element `t`. -/
theorem strength_blk (c : Dev nD) (t : Fin cfg0.N) (i : Fin 1024) :
    Body.dv (iblk m c 4 t) (iblk m c 0 t) (iblk m c 2 t) (iblk m c 3 t) i = Cert.ReferenceIdeal.RefValue.strength (A0 m c) (A1 m c) (A4 m c) (A5 m c) (A6 m c) (A7 m c) (A10 m c) (A11 m c) (pt t) i := by
  unfold Body.dv Cert.ReferenceIdeal.RefValue.strength
  exact congrArg₂ (· * ·) (blk_gate m c t) (congrArg₂ (· - ·) (blk_val m c t i)
    (congrArg₂ (· * ·) (Finset.sum_congr rfl fun k _ => blk_mat m c t k i) (blk_key m c t i)))

/-! ## The first result: the updated matrices -/

/-- The updated matrices as one array of the inputs. -/
abbrev updated (c : Dev nD) : FVec Ideal S64x1024x1024 .f32 := Cert.ReferenceIdeal.Read.val_main_v42 (F := Ideal) (A0 m c) (A1 m c) (A4 m c) (A5 m c) (A6 m c) (A7 m c) (A10 m c) (A11 m c)

/-- What point `t` writes back to the first result is slice `t` of the updated matrices. -/
theorem flushed5_eq (c : Dev nD) (t : Fin cfg0.N) :
    (dats m 0 c).flushed 5 t = ((cfg0.win 5).blk t).view.read (Elt Ideal) (updated m c) := by
  show (cfg0.win 5).cut (grid0.coords t) ((dats m 0 c).after 5 t) = _
  rw [after0_5]
  unfold out0_5
  rw [View.canon_unit_zero origin3]
  simp only [View.ld_unit_zero (S := S1x1024x1024) origin3, View.ld_unit_zero (S := S1x1x1024) origin3, View.ld_unit_zero (S := S1x1x1) origin3]
  refine funext fun (y : S1x1024x1024.Idx) => ?_
  obtain ⟨u, i, j, rfl⟩ : ∃ (u : Fin 1) (i j : Fin 1024), y = ix3 u i j := ⟨y 0, y 1, y 2, eq_ix3 y⟩
  obtain rfl : u = 0 := Subsingleton.elim _ _
  have he : ((cfg0.win 5).blk t).view.emb (ix3 (0 : Fin 1) i j) = ix3 (pt t) i j := by
    obtain ⟨-, -, -, -, -, ⟨e0, e1, e2⟩, -⟩ := idx_facts t
    funext a; apply Fin.ext
    match a with
    | ⟨0, _⟩ => show win0_5.index t (0 : Fin 3) * 1 + 1 * 0 = t.val; omega
    | ⟨1, _⟩ => show win0_5.index t (1 : Fin 3) * 1024 + 1 * i.val = i.val; omega
    | ⟨2, _⟩ => show win0_5.index t (2 : Fin 3) * 1024 + 1 * j.val = j.val; omega
  refine (Body.update_apply (iblk m c 4 t) (iblk m c 0 t) (iblk m c 2 t) (iblk m c 3 t) i j).trans ?_
  refine Eq.trans ?_ (congrArg (updated m c) he).symm
  refine Eq.trans ?_ (Cert.ReferenceIdeal.RefValue.updated_apply (A0 m c) (A1 m c) (A4 m c) (A5 m c) (A6 m c) (A7 m c) (A10 m c) (A11 m c) (pt t) i j).symm
  exact congrArg₂ (· + ·) (blk_mat m c t i j) (congrArg₂ (· * ·) (strength_blk m c t i) (blk_key m c t j))

/-- An index of the first result is in point `t`'s block iff each coordinate is in the block's range on its axis. -/
theorem mem_blk5 (t : Fin cfg0.N) (i : S64x1024x1024.Idx) :
    i ∈ ((cfg0.win 5).blk t).view.set ↔ ∀ a : Fin 3, win0_5.index t a * S1x1024x1024.size a ≤ (i a).val ∧ (i a).val < win0_5.index t a * S1x1024x1024.size a + S1x1024x1024.size a := by
  show i ∈ ((View.whole main_v42_0).slice (win0_5.rect t)).set ↔ _
  rw [View.set_slice_whole, Rect.mem_set_unit]
  exact Iff.rfl

/-- Every index of the first result lies in the block of the point numbered by its batch coordinate. -/
theorem cover5 (i : S64x1024x1024.Idx) : ∃ t : Fin cfg0.N, (cfg0.win 5).flush t = true ∧ i ∈ ((cfg0.win 5).blk t).view.set := by
  have h0 : (i 0).val < 64 := (i 0).isLt
  have h1 : (i 1).val < 1024 := (i 1).isLt
  have h2 : (i 2).val < 1024 := (i 2).isLt
  obtain ⟨t, ht⟩ : ∃ t : Fin cfg0.N, t.val = (i 0).val := ⟨⟨(i 0).val, lt_of_lt_of_eq h0 N_0.symm⟩, rfl⟩
  refine ⟨t, flush0_5 t, ?_⟩
  rw [mem_blk5]
  obtain ⟨-, -, -, -, -, ⟨e0, e1, e2⟩, -⟩ := idx_facts t
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 1024 ≤ (i 2).val ∧ (i 2).val < win0_5.index t (2 : Fin 3) * 1024 + 1024; omega

/-- The first result array after the run: the updated matrices. -/
theorem final5 (c : Dev nD) : (dats m 0 c).arrAt 5 cfg0.N = updated m c :=
  (dats m 0 c).arrAt_eq_of_cover 5 (updated m c) (fun t _ => flushed5_eq m c t) cover5

/-! ## The second result: the read rows -/

/-- The read rows as one array of the inputs, `[64, 1024]`. -/
abbrev readRows (c : Dev nD) : FVec Ideal S64x1024 .f32 := Cert.ReferenceIdeal.Read.val_main_v50 (F := Ideal) (A0 m c) (A1 m c) (A2 m c) (A3 m c) (A4 m c) (A5 m c) (A6 m c) (A7 m c) (A10 m c) (A11 m c)

/-- The read rows presented one row per batch element, `[64, 1, 1024]`. -/
abbrev readRows3 (c : Dev nD) : FVec Ideal S64x1x1024 .f32 := shapeCast S64x1x1024 (readRows m c) shapeCasts_S64x1024_S64x1x1024

/-- What point `t` writes back to the second result is row `t` of the read rows. -/
theorem flushed6_eq (c : Dev nD) (t : Fin cfg0.N) :
    (dats m 0 c).flushed 6 t = ((cfg0.win 6).blk t).view.read (Elt Ideal) (readRows3 m c) := by
  show (cfg0.win 6).cut (grid0.coords t) ((dats m 0 c).after 6 t) = _
  rw [after0_6]
  unfold out0_6
  rw [View.canon_unit_zero origin3]
  simp only [View.ld_unit_zero (S := S1x1024x1024) origin3, View.ld_unit_zero (S := S1x1x1024) origin3, View.ld_unit_zero (S := S1x1x1) origin3]
  refine funext fun (y : S1x1x1024.Idx) => ?_
  obtain ⟨u, u', i, rfl⟩ : ∃ (u u' : Fin 1) (i : Fin 1024), y = ix3 u u' i := ⟨y 0, y 1, y 2, eq_ix3 y⟩
  obtain rfl : u = 0 := Subsingleton.elim _ _
  obtain rfl : u' = 0 := Subsingleton.elim _ _
  have he : ((cfg0.win 6).blk t).view.emb (ix3 (0 : Fin 1) (0 : Fin 1) i) = ix3 (pt t) (0 : Fin 1) i := by
    obtain ⟨-, -, -, -, -, -, ⟨e0, e1, e2⟩⟩ := idx_facts t
    funext a; apply Fin.ext
    match a with
    | ⟨0, _⟩ => show win0_6.index t (0 : Fin 3) * 1 + 1 * 0 = t.val; omega
    | ⟨1, _⟩ => show win0_6.index t (1 : Fin 3) * 1 + 1 * 0 = 0; omega
    | ⟨2, _⟩ => show win0_6.index t (2 : Fin 3) * 1024 + 1 * i.val = i.val; omega
  refine (Body.read_apply (iblk m c 4 t) (iblk m c 0 t) (iblk m c 1 t) (iblk m c 2 t) (iblk m c 3 t) i).trans ?_
  refine Eq.trans ?_ (congrArg (readRows3 m c) he).symm
  refine Eq.trans ?_ (shapeCast_ab_a1b_apply (readRows m c) shapeCasts_S64x1024_S64x1x1024 (pt t) (0 : Fin 1) i).symm
  refine Eq.trans ?_ (Cert.ReferenceIdeal.RefValue.read_apply (A0 m c) (A1 m c) (A2 m c) (A3 m c) (A4 m c) (A5 m c) (A6 m c) (A7 m c) (A10 m c) (A11 m c) (pt t) i).symm
  have hrow : (∑ j : Fin 1024, Cert.ReferenceIdeal.Read.val_main_v42 (F := Ideal) (A0 m c) (A1 m c) (A4 m c) (A5 m c) (A6 m c) (A7 m c) (A10 m c) (A11 m c) (ix3 (pt t) i j))
      = ∑ j : Fin 1024, (A1 m c (ix3 (pt t) i j) + Cert.ReferenceIdeal.RefValue.strength (A0 m c) (A1 m c) (A4 m c) (A5 m c) (A6 m c) (A7 m c) (A10 m c) (A11 m c) (pt t) i * keys m c (ix2 (pt t) j)) :=
    Finset.sum_congr rfl fun j _ => Cert.ReferenceIdeal.RefValue.updated_apply (A0 m c) (A1 m c) (A4 m c) (A5 m c) (A6 m c) (A7 m c) (A10 m c) (A11 m c) (pt t) i j
  rw [hrow, Cert.FastWeight.row_read (fun j => A1 m c (ix3 (pt t) i j)) (fun j => keys m c (ix2 (pt t) j)) _ _
    (fun j => Cert.ReferenceIdeal.RefValue.key_nonneg (A0 m c) (A4 m c) (A5 m c) (ix2 (pt t) j))]
  exact congrArg₂ (· * ·) (blk_query m c t i) (congrArg₂ (· + ·) (Finset.sum_congr rfl fun k _ => blk_mat m c t i k)
    (congrArg₂ (· * ·) (strength_blk m c t i) (Finset.sum_congr rfl fun k _ => blk_key m c t k)))

/-- An index of the second result is in point `t`'s block iff each coordinate is in the block's range on its axis. -/
theorem mem_blk6 (t : Fin cfg0.N) (i : S64x1x1024.Idx) :
    i ∈ ((cfg0.win 6).blk t).view.set ↔ ∀ a : Fin 3, win0_6.index t a * S1x1x1024.size a ≤ (i a).val ∧ (i a).val < win0_6.index t a * S1x1x1024.size a + S1x1x1024.size a := by
  show i ∈ ((View.whole main_v42_1).slice (win0_6.rect t)).set ↔ _
  rw [View.set_slice_whole, Rect.mem_set_unit]
  exact Iff.rfl

/-- Every index of the second result lies in the block of the point numbered by its batch coordinate. -/
theorem cover6 (i : S64x1x1024.Idx) : ∃ t : Fin cfg0.N, (cfg0.win 6).flush t = true ∧ i ∈ ((cfg0.win 6).blk t).view.set := by
  have h0 : (i 0).val < 64 := (i 0).isLt
  have h1 : (i 1).val < 1 := (i 1).isLt
  have h2 : (i 2).val < 1024 := (i 2).isLt
  obtain ⟨t, ht⟩ : ∃ t : Fin cfg0.N, t.val = (i 0).val := ⟨⟨(i 0).val, lt_of_lt_of_eq h0 N_0.symm⟩, rfl⟩
  refine ⟨t, flush0_6 t, ?_⟩
  rw [mem_blk6]
  obtain ⟨-, -, -, -, -, -, ⟨e0, e1, e2⟩⟩ := idx_facts t
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1 ≤ (i 1).val ∧ (i 1).val < win0_6.index t (1 : Fin 3) * 1 + 1; omega
  | ⟨2, _⟩ => show win0_6.index t (2 : Fin 3) * 1024 ≤ (i 2).val ∧ (i 2).val < win0_6.index t (2 : Fin 3) * 1024 + 1024; omega

/-- The second result array after the run: the read rows, one row per batch element. -/
theorem final6 (c : Dev nD) : (dats m 0 c).arrAt 6 cfg0.N = readRows3 m c :=
  (dats m 0 c).arrAt_eq_of_cover 6 (readRows3 m c) (fun t _ => flushed6_eq m c t) cover6

end Cert.KernelIdeal.Blocks

end
-- ==== Proof.Tail.lean ====
/-
  The kernel program's first result: the output projection of the read rows.

  After the region the program reshapes the region's second result back to `[64, 1024]`, multiplies by the transposed
  output weights and adds the output bias. The region's array holds the read rows one row per batch element, so
  the reshape undoes that presentation exactly, and what is left is the projection both programs share, applied to
  the read rows; the output weights and bias are read as launched, since nothing before them writes an input.
-/
import proofs.«177880_j68539088109957_1_alg».proof.Proof.Blocks
import Idealize.ShloMosaic.Lib.StableHlo.Run
import Idealize.ShloMosaic.Lib.Pipeline.Value

set_option maxRecDepth 16384

noncomputable section

namespace Cert.KernelIdeal.Tail

open Idealize.ShloMosaic Idealize.ShloMosaic.TcCoe Idealize.SL.Sem Idealize.ShloMosaic.StableHlo
open Cert.KernelIdeal Cert.KernelIdeal.Gen Cert.KernelIdeal.Head Cert.KernelIdeal.Blocks

variable (m : (ℓ : Loc nD τ sig) → Buf (Elt Ideal) ℓ)

/-- After the lines that follow the region, the first result holds the projection of the read rows. -/
theorem out_eq (c : Dev nD) :
    (Pipeline.afterTail₀ cfgs (dats m) 0 (V0 m) [hostOps1] c main_v48 : S64x512.Idx → EReal)
      = Cert.ReferenceIdeal.RefValue.project (readRows m c) (A8 m c) (A9 m c) := by
  have h6 : Pipeline.withArrays spec0 c (V0 m c) (fun w => (dats m 0 c).arrAt w cfg0.N) (Proc.devRef .tc main_v42_1) = readRows3 m c :=
    (Pipeline.withArrays_arr spec0 launch0.win.arr_inj c _ _ 6).trans (final6 m c)
  have h8 : Pipeline.withArrays spec0 c (V0 m c) (fun w => (dats m 0 c).arrAt w cfg0.N) (Proc.devRef .tc main_arg8) = A8 m c :=
    (Pipeline.withArrays_of_ne _ c (V0 m c) _ main_arg8 (by exact (by decide : ∀ w, Pipeline.arrRef spec0 w ≠ main_arg8))).trans (V_main_arg8 m c)
  have h9 : Pipeline.withArrays spec0 c (V0 m c) (fun w => (dats m 0 c).arrAt w cfg0.N) (Proc.devRef .tc main_arg9) = A9 m c :=
    (Pipeline.withArrays_of_ne _ c (V0 m c) _ main_arg9 (by exact (by decide : ∀ w, Pipeline.arrRef spec0 w ≠ main_arg9))).trans (V_main_arg9 m c)
  unfold Pipeline.afterTail₀
  show StableHlo.after hostOps1 _ (Proc.devRef .tc main_v48) = _
  after_results
  rw [h6, h8, h9]
  exact congrArg (fun r => Cert.ReferenceIdeal.RefValue.project r (A8 m c) (A9 m c))
    (shapeCast_shapeCast (readRows m c) shapeCasts_S64x1024_S64x1x1024 shapeCasts_S64x1x1024_S64x1024)

end Cert.KernelIdeal.Tail

end
-- ==== Proof.Claims.lean ====
/-
  The two runs side by side, and the certificate's five claims.

  The kernel program's run ends with its first result at the output projection of the read rows and its second at the
  updated matrices, both named as the reference's own functions of the inputs; the reference's run ends at the same
  two functions of ITS inputs, which agree with the kernel's. Nothing else is needed for the value claim. The frames
  are the generated ones (the reference's is its generated run with the results dropped), and the kernel was printed
  with no rewrite, so there is nothing to preserve.
-/
import proofs.«177880_j68539088109957_1_alg».proof.Defs
import proofs.«177880_j68539088109957_1_alg».proof.Proof.Tail
import proofs.«177880_j68539088109957_1_alg».proof.Proof.Gen.Pre_finite_inputs
import proofs.«177880_j68539088109957_1_alg».proof.Proof.Gen.Kernel.Frame
import proofs.«177880_j68539088109957_1_alg».proof.Proof.Gen.ReferenceIdeal.Run

set_option maxRecDepth 16384

noncomputable section

namespace Cert.KernelIdeal.Value

open Idealize.ShloMosaic Idealize.ShloMosaic.TcCoe Idealize.SL.Sem
open Cert.KernelIdeal Cert.KernelIdeal.Gen Cert.KernelIdeal.Head Cert.KernelIdeal.Blocks

variable (m : (ℓ : Loc nD τ sig) → Buf (Elt Ideal) ℓ) (ρ : Dev nD → PrngReg)

/-- The kernel program's run with both results named: the projection of the read rows, and the updated matrices; the
    inputs end as launched. -/
theorem run : θ_run (defs (F := Ideal)) (onTc (τ := τ) (main (F := Ideal))) ⟨m, fun _ => 0, ρ⟩ (fun r => ∀ c : Dev nD,
      r.2.mem ((c.tc : Thread nD τ).loc main_v48) = Cert.ReferenceIdeal.RefValue.project (readRows m c) (A8 m c) (A9 m c)
      ∧ r.2.mem ((c.tc : Thread nD τ).loc main_v42_0) = updated m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_v48 (Pipeline.mem_restRefs_of main_v48 (by decide) (by decide))).trans (Tail.out_eq m c),
      ((h c).1 5).trans (final5 m c),
      (((h c).2 Cert.KernelIdeal.main_arg0 (Pipeline.mem_restRefs_of Cert.KernelIdeal.main_arg0 (by decide) (by decide))).trans (Cert.KernelIdeal.Gen.W_main_arg0 m (Cert.KernelIdeal.Gen.dats m) c)),
      ((h c).1 4).trans (((Cert.KernelIdeal.Gen.dats m 0 c).arrAt_in 4 rfl _).trans ((Cert.KernelIdeal.Gen.A_eq m c 4).trans (Cert.KernelIdeal.Gen.V_main_arg1 m c))),
      (((h c).2 Cert.KernelIdeal.main_arg2 (Pipeline.mem_restRefs_of Cert.KernelIdeal.main_arg2 (by decide) (by decide))).trans (Cert.KernelIdeal.Gen.W_main_arg2 m (Cert.KernelIdeal.Gen.dats m) c)),
      (((h c).2 Cert.KernelIdeal.main_arg3 (Pipeline.mem_restRefs_of Cert.KernelIdeal.main_arg3 (by decide) (by decide))).trans (Cert.KernelIdeal.Gen.W_main_arg3 m (Cert.KernelIdeal.Gen.dats m) c)),
      (((h c).2 Cert.KernelIdeal.main_arg4 (Pipeline.mem_restRefs_of Cert.KernelIdeal.main_arg4 (by decide) (by decide))).trans (Cert.KernelIdeal.Gen.W_main_arg4 m (Cert.KernelIdeal.Gen.dats m) c)),
      (((h c).2 Cert.KernelIdeal.main_arg5 (Pipeline.mem_restRefs_of Cert.KernelIdeal.main_arg5 (by decide) (by decide))).trans (Cert.KernelIdeal.Gen.W_main_arg5 m (Cert.KernelIdeal.Gen.dats m) c)),
      (((h c).2 Cert.KernelIdeal.main_arg6 (Pipeline.mem_restRefs_of Cert.KernelIdeal.main_arg6 (by decide) (by decide))).trans (Cert.KernelIdeal.Gen.W_main_arg6 m (Cert.KernelIdeal.Gen.dats m) c)),
      (((h c).2 Cert.KernelIdeal.main_arg7 (Pipeline.mem_restRefs_of Cert.KernelIdeal.main_arg7 (by decide) (by decide))).trans (Cert.KernelIdeal.Gen.W_main_arg7 m (Cert.KernelIdeal.Gen.dats m) c)),
      (((h c).2 Cert.KernelIdeal.main_arg8 (Pipeline.mem_restRefs_of Cert.KernelIdeal.main_arg8 (by decide) (by decide))).trans (Cert.KernelIdeal.Gen.W_main_arg8 m (Cert.KernelIdeal.Gen.dats m) c)),
      (((h c).2 Cert.KernelIdeal.main_arg9 (Pipeline.mem_restRefs_of Cert.KernelIdeal.main_arg9 (by decide) (by decide))).trans (Cert.KernelIdeal.Gen.W_main_arg9 m (Cert.KernelIdeal.Gen.dats m) c)),
      (((h c).2 Cert.KernelIdeal.main_arg10 (Pipeline.mem_restRefs_of Cert.KernelIdeal.main_arg10 (by decide) (by decide))).trans (Cert.KernelIdeal.Gen.W_main_arg10 m (Cert.KernelIdeal.Gen.dats m) c)),
      (((h c).2 Cert.KernelIdeal.main_arg11 (Pipeline.mem_restRefs_of Cert.KernelIdeal.main_arg11 (by decide) (by decide))).trans (Cert.KernelIdeal.Gen.W_main_arg11 m (Cert.KernelIdeal.Gen.dats m) c))⟩)
    (run_main m ρ)

end Cert.KernelIdeal.Value

namespace Cert.Proof.Claims

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- Both programs, from memories agreeing on the inputs, end with the same two results: each side's are the same two
    functions of the inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.Value.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11⟩ := hagree c
  refine ⟨(h c).1.trans ?_, (h c).2.1.trans ?_, (h c).2.2⟩
  · rw [Cert.ReferenceIdeal.Read.val_main_v55_eq, Cert.ReferenceIdeal.RefValue.out_eq_project, a0, a1, a2, a3, a4, a5, a6, a7, a8, a9, a10, a11]
  · rw [Cert.ReferenceIdeal.Read.val_main_v42_eq, a0, a1, a4, a5, a6, a7, a10, a11]

end Cert.Proof.Claims

end
-- ==== Proof.lean ====
/-
  A fast-weight memory cell with a delta-rule write, one batch element per grid point, against its plain reference.

  From the input `x` both programs project, by the same operations, the query and key features `qp`, `kp` (each the
  entrywise product of a rectified row with the same row taken one position to the left), the value `v` and the
  write gate `β`. With `W` the fast-weight matrix of one batch element they form the write strength
      dv i = β * (v i - (∑ k, W k i) * kp i),
  the updated matrix `W i j + dv i * kp j` (the second result), and the read row whose projection by the output
  weights and bias is the first result. The two programs differ in one place only. The reference reads the UPDATED
  matrix, `(∑ j, (W i j + dv i * kp j)) * qp i`; the kernel never forms that sum and computes
  `qp i * ((∑ j, W i j) + dv i * ∑ j, kp j)` from the old matrix's row sums and the sum of the key features. On the
  extended reals the two agree because every `kp j` is non-negative, being a product of two values of the form
  `max · 0`: a factor moves across a sum of non-negative terms whatever the factor is, so no assumption on the sizes
  of the inputs is used. (Splitting a sum of sums, and the order of a product, need nothing.)

  The kernel's side is read off its run block by block: what grid point `b` writes back is slice `b` of the
  reference's own two functions of the inputs, and the 64 slices tile each result; the lines after the region then
  apply the shared output projection. The frames are the generated ones, and the kernel was printed unchanged at the
  ideal instance, so the preservation claim is empty.
-/
import proofs.«177880_j68539088109957_1_alg».proof.Defs
import proofs.«177880_j68539088109957_1_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
